-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel

variable [Facts]

def fn {F : FTy → Type} [FloatOps F] (main_arg0 : FVec F S200000x3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  main_v3
-- ==== Kernel.lean ====
abbrev S200000x3 : Shape := ⟨2, ![200000, 3]⟩
abbrev S200000x1093 : Shape := ⟨2, ![200000, 1093]⟩
abbrev S1000x3 : Shape := ⟨2, ![1000, 3]⟩
abbrev S1000x1093 : Shape := ⟨2, ![1000, 1093]⟩
abbrev S1000x1 : Shape := ⟨2, ![1000, 1]⟩
abbrev S1000x1x1 : Shape := ⟨3, ![1000, 1, 1]⟩
abbrev S1000x1x3 : Shape := ⟨3, ![1000, 1, 3]⟩
abbrev S1000x3x1 : Shape := ⟨3, ![1000, 3, 1]⟩
abbrev S1000x3x3 : Shape := ⟨3, ![1000, 3, 3]⟩
abbrev S1000x9 : Shape := ⟨2, ![1000, 9]⟩
abbrev S1000x9x1 : Shape := ⟨3, ![1000, 9, 1]⟩
abbrev S1000x9x3 : Shape := ⟨3, ![1000, 9, 3]⟩
abbrev S1000x27 : Shape := ⟨2, ![1000, 27]⟩
abbrev S1000x27x1 : Shape := ⟨3, ![1000, 27, 1]⟩
abbrev S1000x27x3 : Shape := ⟨3, ![1000, 27, 3]⟩
abbrev S1000x81 : Shape := ⟨2, ![1000, 81]⟩
abbrev S1000x81x1 : Shape := ⟨3, ![1000, 81, 1]⟩
abbrev S1000x81x3 : Shape := ⟨3, ![1000, 81, 3]⟩
abbrev S1000x243 : Shape := ⟨2, ![1000, 243]⟩
abbrev S1000x243x1 : Shape := ⟨3, ![1000, 243, 1]⟩
abbrev S1000x243x3 : Shape := ⟨3, ![1000, 243, 3]⟩
abbrev S1000x729 : Shape := ⟨2, ![1000, 729]⟩

abbrev nBuf : Space → Nat
  | .hbm => 2
  | .vmem => 4
  | .smem => 0
  | _ => 0

abbrev bufTy : (tb : Table) → Fin (tcTables nBuf tb) → BufTy
  | .hbm, ⟨0, _⟩ => ⟨S200000x3, .f32⟩
  | .hbm, ⟨1, _⟩ => ⟨S200000x1093, .f32⟩
  | .local _ .vmem, ⟨0, _⟩ => ⟨S1000x3, .f32⟩
  | .local _ .vmem, ⟨1, _⟩ => ⟨S1000x3, .f32⟩
  | .local _ .vmem, ⟨2, _⟩ => ⟨S1000x1093, .f32⟩
  | .local _ .vmem, ⟨3, _⟩ => ⟨S1000x1093, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1093 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x3_S1000x3_0_0 : ∀ a, (![0, 0] : Fin 2 → Nat) a + S1000x3.size a ≤ S1000x3.size a
  h_S1000x3 : 0 < S1000x3.numel
  shapeCasts_S1000x1_S1000x1x1 : S1000x1.ShapeCasts S1000x1x1
  shapeCasts_S1000x3_S1000x1x3 : S1000x3.ShapeCasts S1000x1x3
  broadcasts_S1000x1x1_S1000x1x3 : S1000x1x1.Broadcasts S1000x1x3
  shapeCasts_S1000x1x3_S1000x3 : S1000x1x3.ShapeCasts S1000x3
  shapeCasts_S1000x3_S1000x3x1 : S1000x3.ShapeCasts S1000x3x1
  broadcasts_S1000x3x1_S1000x3x3 : S1000x3x1.Broadcasts S1000x3x3
  broadcasts_S1000x1x3_S1000x3x3 : S1000x1x3.Broadcasts S1000x3x3
  shapeCasts_S1000x3x3_S1000x9 : S1000x3x3.ShapeCasts S1000x9
  shapeCasts_S1000x9_S1000x9x1 : S1000x9.ShapeCasts S1000x9x1
  broadcasts_S1000x9x1_S1000x9x3 : S1000x9x1.Broadcasts S1000x9x3
  broadcasts_S1000x1x3_S1000x9x3 : S1000x1x3.Broadcasts S1000x9x3
  shapeCasts_S1000x9x3_S1000x27 : S1000x9x3.ShapeCasts S1000x27
  shapeCasts_S1000x27_S1000x27x1 : S1000x27.ShapeCasts S1000x27x1
  broadcasts_S1000x27x1_S1000x27x3 : S1000x27x1.Broadcasts S1000x27x3
  broadcasts_S1000x1x3_S1000x27x3 : S1000x1x3.Broadcasts S1000x27x3
  shapeCasts_S1000x27x3_S1000x81 : S1000x27x3.ShapeCasts S1000x81
  shapeCasts_S1000x81_S1000x81x1 : S1000x81.ShapeCasts S1000x81x1
  broadcasts_S1000x81x1_S1000x81x3 : S1000x81x1.Broadcasts S1000x81x3
  broadcasts_S1000x1x3_S1000x81x3 : S1000x1x3.Broadcasts S1000x81x3
  shapeCasts_S1000x81x3_S1000x243 : S1000x81x3.ShapeCasts S1000x243
  shapeCasts_S1000x243_S1000x243x1 : S1000x243.ShapeCasts S1000x243x1
  broadcasts_S1000x243x1_S1000x243x3 : S1000x243x1.Broadcasts S1000x243x3
  broadcasts_S1000x1x3_S1000x243x3 : S1000x1x3.Broadcasts S1000x243x3
  shapeCasts_S1000x243x3_S1000x729 : S1000x243x3.ShapeCasts S1000x729
  concatenates_S1000x1_S1000x3_S1000x9_S1000x27_S1000x81_S1000x243_S1000x729_S1000x1093_d1 : Shape.Concatenates [S1000x1, S1000x3, S1000x9, S1000x27, S1000x81, S1000x243, S1000x729] S1000x1093 1
  inb_S1000x1093_S1000x1093_0_0 : ∀ a, (![0, 0] : Fin 2 → Nat) a + S1000x1093.size a ≤ S1000x1093.size a
  h_S1000x1093 : 0 < S1000x1093.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S200000x3.size a
  hwx0_0 : ∀ i : grid0.Coords, EltTy.bits .f32 = 32 ∨ (Rect.block (s := S200000x3) S1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1093.size a ≤ S200000x1093.size a
  hwx0_1 : ∀ i : grid0.Coords, EltTy.bits .f32 = 32 ∨ (Rect.block (s := S200000x1093) S1000x1093.size (cc0_transform_1 i) (hinb0_1 i)).WholeWords (EltTy.packing .f32)

variable [Facts₀]

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1093.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S200000x3 : Shape := ⟨2, ![200000, 3]⟩
abbrev S_ : Shape := ⟨0, ![]⟩
abbrev S200000x1 : Shape := ⟨2, ![200000, 1]⟩
abbrev S200000x1x1 : Shape := ⟨3, ![200000, 1, 1]⟩
abbrev S200000x1x3 : Shape := ⟨3, ![200000, 1, 3]⟩
abbrev S200000x3x1 : Shape := ⟨3, ![200000, 3, 1]⟩
abbrev S200000x3x3 : Shape := ⟨3, ![200000, 3, 3]⟩
abbrev S200000x9 : Shape := ⟨2, ![200000, 9]⟩
abbrev S200000x9x1 : Shape := ⟨3, ![200000, 9, 1]⟩
abbrev S200000x9x3 : Shape := ⟨3, ![200000, 9, 3]⟩
abbrev S200000x27 : Shape := ⟨2, ![200000, 27]⟩
abbrev S200000x27x1 : Shape := ⟨3, ![200000, 27, 1]⟩
abbrev S200000x27x3 : Shape := ⟨3, ![200000, 27, 3]⟩
abbrev S200000x81 : Shape := ⟨2, ![200000, 81]⟩
abbrev S200000x81x1 : Shape := ⟨3, ![200000, 81, 1]⟩
abbrev S200000x81x3 : Shape := ⟨3, ![200000, 81, 3]⟩
abbrev S200000x243 : Shape := ⟨2, ![200000, 243]⟩
abbrev S200000x243x1 : Shape := ⟨3, ![200000, 243, 1]⟩
abbrev S200000x243x3 : Shape := ⟨3, ![200000, 243, 3]⟩
abbrev S200000x729 : Shape := ⟨2, ![200000, 729]⟩
abbrev S200000x1093 : Shape := ⟨2, ![200000, 1093]⟩

abbrev nBuf : Space → Nat
  | .hbm => 39
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S_, .f32⟩
  | .hbm, ⟨2, _⟩ => ⟨S200000x1, .f32⟩
  | .hbm, ⟨3, _⟩ => ⟨S200000x1x1, .f32⟩
  | .hbm, ⟨4, _⟩ => ⟨S200000x1x3, .f32⟩
  | .hbm, ⟨5, _⟩ => ⟨S200000x1x3, .f32⟩
  | .hbm, ⟨6, _⟩ => ⟨S200000x1x3, .f32⟩
  | .hbm, ⟨7, _⟩ => ⟨S200000x3, .f32⟩
  | .hbm, ⟨8, _⟩ => ⟨S200000x3x1, .f32⟩
  | .hbm, ⟨9, _⟩ => ⟨S200000x1x3, .f32⟩
  | .hbm, ⟨10, _⟩ => ⟨S200000x3x3, .f32⟩
  | .hbm, ⟨11, _⟩ => ⟨S200000x3x3, .f32⟩
  | .hbm, ⟨12, _⟩ => ⟨S200000x3x3, .f32⟩
  | .hbm, ⟨13, _⟩ => ⟨S200000x9, .f32⟩
  | .hbm, ⟨14, _⟩ => ⟨S200000x9x1, .f32⟩
  | .hbm, ⟨15, _⟩ => ⟨S200000x1x3, .f32⟩
  | .hbm, ⟨16, _⟩ => ⟨S200000x9x3, .f32⟩
  | .hbm, ⟨17, _⟩ => ⟨S200000x9x3, .f32⟩
  | .hbm, ⟨18, _⟩ => ⟨S200000x9x3, .f32⟩
  | .hbm, ⟨19, _⟩ => ⟨S200000x27, .f32⟩
  | .hbm, ⟨20, _⟩ => ⟨S200000x27x1, .f32⟩
  | .hbm, ⟨21, _⟩ => ⟨S200000x1x3, .f32⟩
  | .hbm, ⟨22, _⟩ => ⟨S200000x27x3, .f32⟩
  | .hbm, ⟨23, _⟩ => ⟨S200000x27x3, .f32⟩
  | .hbm, ⟨24, _⟩ => ⟨S200000x27x3, .f32⟩
  | .hbm, ⟨25, _⟩ => ⟨S200000x81, .f32⟩
  | .hbm, ⟨26, _⟩ => ⟨S200000x81x1, .f32⟩
  | .hbm, ⟨27, _⟩ => ⟨S200000x1x3, .f32⟩
  | .hbm, ⟨28, _⟩ => ⟨S200000x81x3, .f32⟩
  | .hbm, ⟨29, _⟩ => ⟨S200000x81x3, .f32⟩
  | .hbm, ⟨30, _⟩ => ⟨S200000x81x3, .f32⟩
  | .hbm, ⟨31, _⟩ => ⟨S200000x243, .f32⟩
  | .hbm, ⟨32, _⟩ => ⟨S200000x243x1, .f32⟩
  | .hbm, ⟨33, _⟩ => ⟨S200000x1x3, .f32⟩
  | .hbm, ⟨34, _⟩ => ⟨S200000x243x3, .f32⟩
  | .hbm, ⟨35, _⟩ => ⟨S200000x243x3, .f32⟩
  | .hbm, ⟨36, _⟩ => ⟨S200000x243x3, .f32⟩
  | .hbm, ⟨37, _⟩ => ⟨S200000x729, .f32⟩
  | .hbm, ⟨38, _⟩ => ⟨S200000x1093, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩

abbrev nD : Nat := 1
abbrev τ : Topo := Topo.v7x

variable {F : FTy → Type} [FloatOps F]

class Facts₀ : Prop where
  bcast_S_S200000x1 : S_.BroadcastsInDim S200000x1 (![] : Fin 0 → Fin S200000x1.rank)
  bcast_S200000x1_S200000x1x1_0_1 : S200000x1.BroadcastsInDim S200000x1x1 (![0, 1] : Fin 2 → Fin S200000x1x1.rank)
  bcast_S200000x3_S200000x1x3_0_2 : S200000x3.BroadcastsInDim S200000x1x3 (![0, 2] : Fin 2 → Fin S200000x1x3.rank)
  bcast_S200000x1x1_S200000x1x3_0_1_2 : S200000x1x1.BroadcastsInDim S200000x1x3 (![0, 1, 2] : Fin 3 → Fin S200000x1x3.rank)
  shapeCasts_S200000x1x3_S200000x3 : S200000x1x3.ShapeCasts S200000x3
  bcast_S200000x3_S200000x3x1_0_1 : S200000x3.BroadcastsInDim S200000x3x1 (![0, 1] : Fin 2 → Fin S200000x3x1.rank)
  bcast_S200000x3x1_S200000x3x3_0_1_2 : S200000x3x1.BroadcastsInDim S200000x3x3 (![0, 1, 2] : Fin 3 → Fin S200000x3x3.rank)
  bcast_S200000x1x3_S200000x3x3_0_1_2 : S200000x1x3.BroadcastsInDim S200000x3x3 (![0, 1, 2] : Fin 3 → Fin S200000x3x3.rank)
  shapeCasts_S200000x3x3_S200000x9 : S200000x3x3.ShapeCasts S200000x9
  bcast_S200000x9_S200000x9x1_0_1 : S200000x9.BroadcastsInDim S200000x9x1 (![0, 1] : Fin 2 → Fin S200000x9x1.rank)
  bcast_S200000x9x1_S200000x9x3_0_1_2 : S200000x9x1.BroadcastsInDim S200000x9x3 (![0, 1, 2] : Fin 3 → Fin S200000x9x3.rank)
  bcast_S200000x1x3_S200000x9x3_0_1_2 : S200000x1x3.BroadcastsInDim S200000x9x3 (![0, 1, 2] : Fin 3 → Fin S200000x9x3.rank)
  shapeCasts_S200000x9x3_S200000x27 : S200000x9x3.ShapeCasts S200000x27
  bcast_S200000x27_S200000x27x1_0_1 : S200000x27.BroadcastsInDim S200000x27x1 (![0, 1] : Fin 2 → Fin S200000x27x1.rank)
  bcast_S200000x27x1_S200000x27x3_0_1_2 : S200000x27x1.BroadcastsInDim S200000x27x3 (![0, 1, 2] : Fin 3 → Fin S200000x27x3.rank)
  bcast_S200000x1x3_S200000x27x3_0_1_2 : S200000x1x3.BroadcastsInDim S200000x27x3 (![0, 1, 2] : Fin 3 → Fin S200000x27x3.rank)
  shapeCasts_S200000x27x3_S200000x81 : S200000x27x3.ShapeCasts S200000x81
  bcast_S200000x81_S200000x81x1_0_1 : S200000x81.BroadcastsInDim S200000x81x1 (![0, 1] : Fin 2 → Fin S200000x81x1.rank)
  bcast_S200000x81x1_S200000x81x3_0_1_2 : S200000x81x1.BroadcastsInDim S200000x81x3 (![0, 1, 2] : Fin 3 → Fin S200000x81x3.rank)
  bcast_S200000x1x3_S200000x81x3_0_1_2 : S200000x1x3.BroadcastsInDim S200000x81x3 (![0, 1, 2] : Fin 3 → Fin S200000x81x3.rank)
  shapeCasts_S200000x81x3_S200000x243 : S200000x81x3.ShapeCasts S200000x243
  bcast_S200000x243_S200000x243x1_0_1 : S200000x243.BroadcastsInDim S200000x243x1 (![0, 1] : Fin 2 → Fin S200000x243x1.rank)
  bcast_S200000x243x1_S200000x243x3_0_1_2 : S200000x243x1.BroadcastsInDim S200000x243x3 (![0, 1, 2] : Fin 3 → Fin S200000x243x3.rank)
  bcast_S200000x1x3_S200000x243x3_0_1_2 : S200000x1x3.BroadcastsInDim S200000x243x3 (![0, 1, 2] : Fin 3 → Fin S200000x243x3.rank)
  shapeCasts_S200000x243x3_S200000x729 : S200000x243x3.ShapeCasts S200000x729
  concatenates_S200000x1_S200000x3_S200000x9_S200000x27_S200000x81_S200000x243_S200000x729_S200000x1093_d1 : Shape.Concatenates [S200000x1, S200000x3, S200000x9, S200000x27, S200000x81, S200000x243, S200000x729] S200000x1093 1

variable [Facts₀]

class Facts : Prop extends Facts₀ where

variable [Facts]
-- ==== Proof.LibRowTensor.lean ====
/-
  Reading a ROW-WISE TENSOR STEP at an index, for any number of rows `n` and any width `k` of the previous level.

  A level of a row-wise tensor power is made from the previous level `prev : [n, k]` and the rows `dr : [n, 3]` by
  `out[p, 3 c + d] = prev[p, c] * dr[p, d]`: both are brought to `[n, k, 3]` (the previous level through `[n, k, 1]`, the
  rows through `[n, 1, 3]`), multiplied entry by entry, and the product is laid out flat as `[n, 3 k]`. A vector unit
  spells the two re-layings as a shape cast followed by a broadcast (`kstep_apply`, and `kstep1_apply` for `k = 1`, where
  the rows need no broadcast); a host program spells them as `broadcast_in_dim`s (`hstep_apply`, `hstep1_apply`). Either
  way the flat result at `(p, q)` is `prev (p, q / 3) * dr (p, q % 3)`.

  Seven such levels of widths 1, 3, 9, 27, 81, 243, 729 laid side by side along the second axis make a `[n, 1093]` array:
  `concat7_apply_0` … `concat7_apply_6` read that concatenation at a column inside piece 0 … 6 (the pieces start at columns
  0, 1, 4, 13, 40, 121, 364).
-/
import Idealize.ShloMosaic.Lib.ValueLayout
import Idealize.ShloMosaic.Lib.ValueIdx
import Idealize.ShloMosaic.Lib.Pipeline.Value
import Idealize.ShloMosaic.PureOps.Ideal

noncomputable section

namespace RowTensor

open Idealize.ShloMosaic Idealize.ShloMosaic.ValueIdx

variable {α : Type}

/-! ## The four re-layings of a vector unit, each read at an index given by coordinates -/

/-- An `[n, k]` array cast to `[n, k, 1]` reads, at `(p, c, z)`, the operand at `(p, c)`. -/
theorem cast_nk_nk1_apply {n k : ℕ} (x : (⟨2, ![n, k]⟩ : Shape).Idx → α)
    (h : (⟨2, ![n, k]⟩ : Shape).ShapeCasts ⟨3, ![n, k, 1]⟩) (p : Fin n) (c : Fin k) (z : Fin 1) :
    shapeCast ⟨3, ![n, k, 1]⟩ x h (ix3 p c z) = x (ix2 p c) :=
  shapeCast_apply x h _ _ (by
    have hz : z.val = 0 := by omega
    rw [Shape.rowMajor_val_three, Shape.rowMajor_val_two]
    show p.val * k + c.val = (p.val * k + c.val) * 1 + z.val
    rw [hz, Nat.mul_one, Nat.add_zero])

/-- An `[n, 3]` array cast to `[n, 1, 3]` reads, at `(p, z, d)`, the operand at `(p, d)`. -/
theorem cast_n3_n13_apply {n : ℕ} (x : (⟨2, ![n, 3]⟩ : Shape).Idx → α)
    (h : (⟨2, ![n, 3]⟩ : Shape).ShapeCasts ⟨3, ![n, 1, 3]⟩) (p : Fin n) (z : Fin 1) (d : Fin 3) :
    shapeCast ⟨3, ![n, 1, 3]⟩ x h (ix3 p z d) = x (ix2 p d) :=
  shapeCast_apply x h _ _ (by
    have hz : z.val = 0 := by omega
    rw [Shape.rowMajor_val_three, Shape.rowMajor_val_two]
    show p.val * 3 + d.val = (p.val * 1 + z.val) * 3 + d.val
    rw [hz, Nat.mul_one, Nat.add_zero])

/-- An `[n, k, 1]` array broadcast to `[n, k, 3]` reads, at `(p, c, d)`, the operand at `(p, c, 0)`. -/
theorem bcast_nk1_nk3_apply {n k : ℕ} (x : (⟨3, ![n, k, 1]⟩ : Shape).Idx → α)
    (h : (⟨3, ![n, k, 1]⟩ : Shape).Broadcasts ⟨3, ![n, k, 3]⟩) (p : Fin n) (c : Fin k) (d : Fin 3) :
    broadcastTo ⟨3, ![n, k, 3]⟩ x h (ix3 p c d) = x (ix3 p c (0 : Fin 1)) := by
  refine broadcastTo_apply x h (ix3 p c d) (ix3 p c (0 : Fin 1)) fun ax => ?_
  match ax with
  | ⟨0, _⟩ =>
    show p.val = if n = 1 then 0 else p.val
    split
    · have := p.isLt; omega
    · rfl
  | ⟨1, _⟩ =>
    show c.val = if k = 1 then 0 else c.val
    split
    · have := c.isLt; omega
    · rfl
  | ⟨2, _⟩ =>
    show (0 : ℕ) = if (1 : ℕ) = 1 then 0 else d.val
    rw [if_pos rfl]

/-- An `[n, 1, 3]` array broadcast to `[n, k, 3]` reads, at `(p, c, d)`, the operand at `(p, 0, d)`. -/
theorem bcast_n13_nk3_apply {n k : ℕ} (x : (⟨3, ![n, 1, 3]⟩ : Shape).Idx → α)
    (h : (⟨3, ![n, 1, 3]⟩ : Shape).Broadcasts ⟨3, ![n, k, 3]⟩) (p : Fin n) (c : Fin k) (d : Fin 3) :
    broadcastTo ⟨3, ![n, k, 3]⟩ x h (ix3 p c d) = x (ix3 p (0 : Fin 1) d) := by
  refine broadcastTo_apply x h (ix3 p c d) (ix3 p (0 : Fin 1) d) fun ax => ?_
  match ax with
  | ⟨0, _⟩ =>
    show p.val = if n = 1 then 0 else p.val
    split
    · have := p.isLt; omega
    · rfl
  | ⟨1, _⟩ =>
    show (0 : ℕ) = if (1 : ℕ) = 1 then 0 else c.val
    rw [if_pos rfl]
  | ⟨2, _⟩ =>
    show d.val = if (3 : ℕ) = 1 then 0 else d.val
    rw [if_neg (by decide)]

/-! ## The flat layout of the product -/

/-- A column `q` of a row of width `3 k` lies in group `q / 3 < k`. -/
theorem div3_lt {k k3 : ℕ} (hk3 : k3 = k * 3) (q : Fin k3) : q.val / 3 < k := by
  have := q.isLt; omega

/-- An `[n, k, 3]` array cast to `[n, 3 k]` reads, at `(p, q)`, the operand at `(p, q / 3, q % 3)`. -/
theorem cast_nk3_flat_apply {n k k3 : ℕ} (hk3 : k3 = k * 3) (x : (⟨3, ![n, k, 3]⟩ : Shape).Idx → α)
    (h : (⟨3, ![n, k, 3]⟩ : Shape).ShapeCasts ⟨2, ![n, k3]⟩) (p : Fin n) (q : Fin k3) :
    shapeCast ⟨2, ![n, k3]⟩ x h (ix2 p q)
      = x (ix3 p (⟨q.val / 3, div3_lt hk3 q⟩ : Fin k) (⟨q.val % 3, Nat.mod_lt _ (by decide)⟩ : Fin 3)) :=
  shapeCast_apply x h _ _ (by
    rw [Shape.rowMajor_val_three, Shape.rowMajor_val_two]
    show (p.val * k + q.val / 3) * 3 + q.val % 3 = p.val * k3 + q.val
    have e : p.val * k3 = p.val * k * 3 := by rw [hk3, Nat.mul_assoc]
    omega)

/-! ## One level from the one before, as a vector unit spells it -/

/-- THE STEP, for a previous level of any width: the previous level cast to `[n, k, 1]` and broadcast to `[n, k, 3]`, times
    the rows cast to `[n, 1, 3]` and broadcast to `[n, k, 3]`, laid out flat, is `prev (p, q / 3) * dr (p, q % 3)` at `(p, q)`. -/
theorem kstep_apply {n k k3 : ℕ} {φ : FTy} (hk3 : k3 = k * 3)
    (prev : FVec Ideal ⟨2, ![n, k]⟩ φ) (dr : FVec Ideal ⟨2, ![n, 3]⟩ φ)
    (h1 : (⟨2, ![n, k]⟩ : Shape).ShapeCasts ⟨3, ![n, k, 1]⟩) (h2 : (⟨3, ![n, k, 1]⟩ : Shape).Broadcasts ⟨3, ![n, k, 3]⟩)
    (h3 : (⟨2, ![n, 3]⟩ : Shape).ShapeCasts ⟨3, ![n, 1, 3]⟩) (h4 : (⟨3, ![n, 1, 3]⟩ : Shape).Broadcasts ⟨3, ![n, k, 3]⟩)
    (h5 : (⟨3, ![n, k, 3]⟩ : Shape).ShapeCasts ⟨2, ![n, k3]⟩) (p : Fin n) (q : Fin k3) :
    shapeCast ⟨2, ![n, k3]⟩
        (mulf (broadcastTo ⟨3, ![n, k, 3]⟩ (shapeCast ⟨3, ![n, k, 1]⟩ prev h1) h2)
          (broadcastTo ⟨3, ![n, k, 3]⟩ (shapeCast ⟨3, ![n, 1, 3]⟩ dr h3) h4)) h5 (ix2 p q)
      = prev (ix2 p (⟨q.val / 3, div3_lt hk3 q⟩ : Fin k)) * dr (ix2 p (⟨q.val % 3, Nat.mod_lt _ (by decide)⟩ : Fin 3)) := by
  refine (cast_nk3_flat_apply hk3 _ h5 p q).trans ?_
  exact congrArg₂ (· * ·)
    ((bcast_nk1_nk3_apply _ h2 p _ _).trans (cast_nk_nk1_apply prev h1 p _ _))
    ((bcast_n13_nk3_apply _ h4 p _ _).trans (cast_n3_n13_apply dr h3 p _ _))

/-- THE FIRST STEP, from a level of width 1: the rows, already `[n, 1, 3]` after their cast, are multiplied as they are. -/
theorem kstep1_apply {n : ℕ} {φ : FTy}
    (prev : FVec Ideal ⟨2, ![n, 1]⟩ φ) (dr : FVec Ideal ⟨2, ![n, 3]⟩ φ)
    (h1 : (⟨2, ![n, 1]⟩ : Shape).ShapeCasts ⟨3, ![n, 1, 1]⟩) (h2 : (⟨3, ![n, 1, 1]⟩ : Shape).Broadcasts ⟨3, ![n, 1, 3]⟩)
    (h3 : (⟨2, ![n, 3]⟩ : Shape).ShapeCasts ⟨3, ![n, 1, 3]⟩)
    (h5 : (⟨3, ![n, 1, 3]⟩ : Shape).ShapeCasts ⟨2, ![n, 3]⟩) (p : Fin n) (q : Fin 3) :
    shapeCast ⟨2, ![n, 3]⟩
        (mulf (broadcastTo ⟨3, ![n, 1, 3]⟩ (shapeCast ⟨3, ![n, 1, 1]⟩ prev h1) h2)
          (shapeCast ⟨3, ![n, 1, 3]⟩ dr h3)) h5 (ix2 p q)
      = prev (ix2 p (⟨q.val / 3, div3_lt (k := 1) rfl q⟩ : Fin 1)) * dr (ix2 p (⟨q.val % 3, Nat.mod_lt _ (by decide)⟩ : Fin 3)) := by
  refine (cast_nk3_flat_apply (k := 1) rfl _ h5 p q).trans ?_
  exact congrArg₂ (· * ·)
    ((bcast_nk1_nk3_apply _ h2 p _ _).trans (cast_nk_nk1_apply prev h1 p _ _))
    (cast_n3_n13_apply dr h3 p _ _)

/-! ## The same re-layings as a host program spells them: `broadcast_in_dim` -/

/-- An `[n, k]` array sent to axes 0 and 1 of `[n, k, 1]` reads, at `(p, c, z)`, the operand at `(p, c)`. -/
theorem hb_nk_nk1_apply {n k : ℕ} (x : (⟨2, ![n, k]⟩ : Shape).Idx → α)
    (h : (⟨2, ![n, k]⟩ : Shape).BroadcastsInDim ⟨3, ![n, k, 1]⟩ ![0, 1]) (p : Fin n) (c : Fin k) (z : Fin 1) :
    broadcastInDim ⟨3, ![n, k, 1]⟩ ![0, 1] h x (ix3 p c z) = x (ix2 p c) := by
  refine broadcastInDim_apply _ h x (ix3 p c z) (ix2 p c) fun ax => ?_
  match ax with
  | ⟨0, _⟩ =>
    show p.val = if n = 1 then 0 else p.val
    split
    · have := p.isLt; omega
    · rfl
  | ⟨1, _⟩ =>
    show c.val = if k = 1 then 0 else c.val
    split
    · have := c.isLt; omega
    · rfl

/-- An `[n, 3]` array sent to axes 0 and 2 of `[n, 1, 3]` reads, at `(p, z, d)`, the operand at `(p, d)`. -/
theorem hb_n3_n13_apply {n : ℕ} (x : (⟨2, ![n, 3]⟩ : Shape).Idx → α)
    (h : (⟨2, ![n, 3]⟩ : Shape).BroadcastsInDim ⟨3, ![n, 1, 3]⟩ ![0, 2]) (p : Fin n) (z : Fin 1) (d : Fin 3) :
    broadcastInDim ⟨3, ![n, 1, 3]⟩ ![0, 2] h x (ix3 p z d) = x (ix2 p d) := by
  refine broadcastInDim_apply _ h x (ix3 p z d) (ix2 p d) fun ax => ?_
  match ax with
  | ⟨0, _⟩ =>
    show p.val = if n = 1 then 0 else p.val
    split
    · have := p.isLt; omega
    · rfl
  | ⟨1, _⟩ =>
    show d.val = if (3 : ℕ) = 1 then 0 else d.val
    rw [if_neg (by decide)]

/-- An `[n, k, 1]` array stretched to `[n, k, 3]` reads, at `(p, c, d)`, the operand at `(p, c, 0)`. -/
theorem hb_nk1_nk3_apply {n k : ℕ} (x : (⟨3, ![n, k, 1]⟩ : Shape).Idx → α)
    (h : (⟨3, ![n, k, 1]⟩ : Shape).BroadcastsInDim ⟨3, ![n, k, 3]⟩ ![0, 1, 2]) (p : Fin n) (c : Fin k) (d : Fin 3) :
    broadcastInDim ⟨3, ![n, k, 3]⟩ ![0, 1, 2] h x (ix3 p c d) = x (ix3 p c (0 : Fin 1)) := by
  refine broadcastInDim_apply _ h x (ix3 p c d) (ix3 p c (0 : Fin 1)) fun ax => ?_
  match ax with
  | ⟨0, _⟩ =>
    show p.val = if n = 1 then 0 else p.val
    split
    · have := p.isLt; omega
    · rfl
  | ⟨1, _⟩ =>
    show c.val = if k = 1 then 0 else c.val
    split
    · have := c.isLt; omega
    · rfl
  | ⟨2, _⟩ =>
    show (0 : ℕ) = if (1 : ℕ) = 1 then 0 else d.val
    rw [if_pos rfl]

/-- An `[n, 1, 3]` array stretched to `[n, k, 3]` reads, at `(p, c, d)`, the operand at `(p, 0, d)`. -/
theorem hb_n13_nk3_apply {n k : ℕ} (x : (⟨3, ![n, 1, 3]⟩ : Shape).Idx → α)
    (h : (⟨3, ![n, 1, 3]⟩ : Shape).BroadcastsInDim ⟨3, ![n, k, 3]⟩ ![0, 1, 2]) (p : Fin n) (c : Fin k) (d : Fin 3) :
    broadcastInDim ⟨3, ![n, k, 3]⟩ ![0, 1, 2] h x (ix3 p c d) = x (ix3 p (0 : Fin 1) d) := by
  refine broadcastInDim_apply _ h x (ix3 p c d) (ix3 p (0 : Fin 1) d) fun ax => ?_
  match ax with
  | ⟨0, _⟩ =>
    show p.val = if n = 1 then 0 else p.val
    split
    · have := p.isLt; omega
    · rfl
  | ⟨1, _⟩ =>
    show (0 : ℕ) = if (1 : ℕ) = 1 then 0 else c.val
    rw [if_pos rfl]
  | ⟨2, _⟩ =>
    show d.val = if (3 : ℕ) = 1 then 0 else d.val
    rw [if_neg (by decide)]

/-- THE STEP as a host program spells it: `prev (p, q / 3) * dr (p, q % 3)` at `(p, q)`. -/
theorem hstep_apply {n k k3 : ℕ} {φ : FTy} (hk3 : k3 = k * 3)
    (prev : FVec Ideal ⟨2, ![n, k]⟩ φ) (dr : FVec Ideal ⟨2, ![n, 3]⟩ φ)
    (h6 : (⟨2, ![n, k]⟩ : Shape).BroadcastsInDim ⟨3, ![n, k, 1]⟩ ![0, 1])
    (h8 : (⟨3, ![n, k, 1]⟩ : Shape).BroadcastsInDim ⟨3, ![n, k, 3]⟩ ![0, 1, 2])
    (h7 : (⟨2, ![n, 3]⟩ : Shape).BroadcastsInDim ⟨3, ![n, 1, 3]⟩ ![0, 2])
    (h9 : (⟨3, ![n, 1, 3]⟩ : Shape).BroadcastsInDim ⟨3, ![n, k, 3]⟩ ![0, 1, 2])
    (h5 : (⟨3, ![n, k, 3]⟩ : Shape).ShapeCasts ⟨2, ![n, k3]⟩) (p : Fin n) (q : Fin k3) :
    shapeCast ⟨2, ![n, k3]⟩
        (mulf (broadcastInDim ⟨3, ![n, k, 3]⟩ ![0, 1, 2] h8 (broadcastInDim ⟨3, ![n, k, 1]⟩ ![0, 1] h6 prev))
          (broadcastInDim ⟨3, ![n, k, 3]⟩ ![0, 1, 2] h9 (broadcastInDim ⟨3, ![n, 1, 3]⟩ ![0, 2] h7 dr))) h5 (ix2 p q)
      = prev (ix2 p (⟨q.val / 3, div3_lt hk3 q⟩ : Fin k)) * dr (ix2 p (⟨q.val % 3, Nat.mod_lt _ (by decide)⟩ : Fin 3)) := by
  refine (cast_nk3_flat_apply hk3 _ h5 p q).trans ?_
  exact congrArg₂ (· * ·)
    ((hb_nk1_nk3_apply _ h8 p _ _).trans (hb_nk_nk1_apply prev h6 p _ _))
    ((hb_n13_nk3_apply _ h9 p _ _).trans (hb_n3_n13_apply dr h7 p _ _))

/-- THE FIRST STEP as a host program spells it: the rows, sent to `[n, 1, 3]`, are multiplied as they are. -/
theorem hstep1_apply {n : ℕ} {φ : FTy}
    (prev : FVec Ideal ⟨2, ![n, 1]⟩ φ) (dr : FVec Ideal ⟨2, ![n, 3]⟩ φ)
    (h6 : (⟨2, ![n, 1]⟩ : Shape).BroadcastsInDim ⟨3, ![n, 1, 1]⟩ ![0, 1])
    (h8 : (⟨3, ![n, 1, 1]⟩ : Shape).BroadcastsInDim ⟨3, ![n, 1, 3]⟩ ![0, 1, 2])
    (h7 : (⟨2, ![n, 3]⟩ : Shape).BroadcastsInDim ⟨3, ![n, 1, 3]⟩ ![0, 2])
    (h5 : (⟨3, ![n, 1, 3]⟩ : Shape).ShapeCasts ⟨2, ![n, 3]⟩) (p : Fin n) (q : Fin 3) :
    shapeCast ⟨2, ![n, 3]⟩
        (mulf (broadcastInDim ⟨3, ![n, 1, 3]⟩ ![0, 1, 2] h8 (broadcastInDim ⟨3, ![n, 1, 1]⟩ ![0, 1] h6 prev))
          (broadcastInDim ⟨3, ![n, 1, 3]⟩ ![0, 2] h7 dr)) h5 (ix2 p q)
      = prev (ix2 p (⟨q.val / 3, div3_lt (k := 1) rfl q⟩ : Fin 1)) * dr (ix2 p (⟨q.val % 3, Nat.mod_lt _ (by decide)⟩ : Fin 3)) := by
  refine (cast_nk3_flat_apply (k := 1) rfl _ h5 p q).trans ?_
  exact congrArg₂ (· * ·)
    ((hb_nk1_nk3_apply _ h8 p _ _).trans (hb_nk_nk1_apply prev h6 p _ _))
    (hb_n3_n13_apply dr h7 p _ _)

/-! ## Seven levels side by side -/

section Concat7

variable {n : ℕ}
  (x0 : (⟨2, ![n, 1]⟩ : Shape).Idx → α) (x1 : (⟨2, ![n, 3]⟩ : Shape).Idx → α) (x2 : (⟨2, ![n, 9]⟩ : Shape).Idx → α)
  (x3 : (⟨2, ![n, 27]⟩ : Shape).Idx → α) (x4 : (⟨2, ![n, 81]⟩ : Shape).Idx → α) (x5 : (⟨2, ![n, 243]⟩ : Shape).Idx → α)
  (x6 : (⟨2, ![n, 729]⟩ : Shape).Idx → α)

/-- The seven levels, each with its shape, in order. -/
abbrev pieces7 : List ((s : Shape) × (s.Idx → α)) :=
  [⟨⟨2, ![n, 1]⟩, x0⟩, ⟨⟨2, ![n, 3]⟩, x1⟩, ⟨⟨2, ![n, 9]⟩, x2⟩, ⟨⟨2, ![n, 27]⟩, x3⟩, ⟨⟨2, ![n, 81]⟩, x4⟩,
    ⟨⟨2, ![n, 243]⟩, x5⟩, ⟨⟨2, ![n, 729]⟩, x6⟩]

/-- The concatenation along the columns read at `(p, j)` with `j` inside piece `k` — of width `w`, starting at column `pre` —
    is that piece at `(p, j - pre)`. -/
theorem concat7_apply_piece (h : Shape.Concatenates ((pieces7 x0 x1 x2 x3 x4 x5 x6).map (·.1)) ⟨2, ![n, 1093]⟩ 1)
    (p : Fin n) (j : Fin 1093) (k : ℕ) (hk : k < (pieces7 x0 x1 x2 x3 x4 x5 x6).length) (w : ℕ)
    (y : (⟨2, ![n, w]⟩ : Shape).Idx → α) (hxk : (pieces7 x0 x1 x2 x3 x4 x5 x6)[k] = ⟨⟨2, ![n, w]⟩, y⟩) (pre : ℕ)
    (hpre : ((((pieces7 x0 x1 x2 x3 x4 x5 x6).take k).map (·.1)).map fun s : Shape =>
      if h : s.rank = (⟨2, ![n, 1093]⟩ : Shape).rank then s.size ((1 : Fin (⟨2, ![n, 1093]⟩ : Shape).rank).cast h.symm) else 0).sum = pre)
    (hlo : pre ≤ j.val) (hhi : j.val < pre + w) :
    concatenate ⟨2, ![n, 1093]⟩ 1 (pieces7 x0 x1 x2 x3 x4 x5 x6) h (ix2 p j)
      = y (ix2 p (⟨j.val - pre, by omega⟩ : Fin w)) :=
  concatenate_apply_piece 1 _ h (ix2 p j) k hk ⟨2, ![n, w]⟩ y hxk rfl pre hpre (ix2 p (⟨j.val - pre, by omega⟩ : Fin w))
    (fun b hb => match b, hb with
      | ⟨0, _⟩, _ => rfl
      | ⟨1, _⟩, hb => absurd (Fin.ext rfl) hb)
    (by show pre + (j.val - pre) = j.val; omega)

end Concat7

end RowTensor

end
-- ==== Proof.Basis.lean ====
/-
  THE ANGULAR BASIS OF A ROW, as mathematics: the tensor powers of a vector `x = (x₀, x₁, x₂)` up to degree 6, laid side by side.

  Level `l` has `3 ^ l` entries. Level 0 is the single entry one; entry `c` of level `l + 1` is entry `c / 3` of level `l` times
  `x (c % 3)` — so entry `c` of level `l` is the product of the `x`'s named by the `l` base-3 digits of `c`, multiplied from the
  most significant digit on, starting from one. The basis of the row is the seven levels 0 … 6 one after the other: 1093
  entries, level `l` starting at column `(3 ^ l - 1) / 2`, that is at 0, 1, 4, 13, 40, 121, 364.

  The products are taken in the extended reals exactly as both programs take them (the previous level on the left, the
  coordinate on the right), so no law of arithmetic is needed to compare them with this function: only where each entry sits.
-/
import Idealize.ShloMosaic.Lib.ValueIdx
import Idealize.ShloMosaic.PureOps.Ideal

noncomputable section

namespace AngularBasis

open Idealize.ShloMosaic Idealize.ShloMosaic.ValueIdx

/-- The float pattern of `1.0`, which both programs splat as level 0; it is never evaluated. -/
abbrev one : Ideal .f32 := Ideal.ofBits .f32 0x3F800000#32

/-- Entry `c` of level `l` of the row `x`. -/
def lev (x : Fin 3 → Ideal .f32) : ℕ → ℕ → Ideal .f32
  | 0, _ => one
  | l + 1, c => lev x l (c / 3) * x ⟨c % 3, Nat.mod_lt _ (by decide)⟩

theorem lev_zero (x : Fin 3 → Ideal .f32) (c : ℕ) : lev x 0 c = one := rfl

theorem lev_succ (x : Fin 3 → Ideal .f32) (l c : ℕ) :
    lev x (l + 1) c = lev x l (c / 3) * x ⟨c % 3, Nat.mod_lt _ (by decide)⟩ := rfl

/-- Column `j` of the row's basis: the level whose span holds `j`, at `j` less the level's first column. -/
def basis (x : Fin 3 → Ideal .f32) (j : ℕ) : Ideal .f32 :=
  if j < 1 then lev x 0 j
  else if j < 4 then lev x 1 (j - 1)
  else if j < 13 then lev x 2 (j - 4)
  else if j < 40 then lev x 3 (j - 13)
  else if j < 121 then lev x 4 (j - 40)
  else if j < 364 then lev x 5 (j - 121)
  else lev x 6 (j - 364)

/-- Row `p` of an `[n, 3]` array. -/
def rowOf {n : ℕ} (X : (⟨2, ![n, 3]⟩ : Shape).Idx → Ideal .f32) (p : Fin n) : Fin 3 → Ideal .f32 :=
  fun d => X (ix2 p d)

theorem rowOf_apply {n : ℕ} (X : (⟨2, ![n, 3]⟩ : Shape).Idx → Ideal .f32) (p : Fin n) (d : Fin 3) :
    rowOf X p d = X (ix2 p d) := rfl

/-- THE RESULT as one function of the argument array: row `p` of the `[n, 1093]` result is the basis of row `p` of `X`. -/
def G {n : ℕ} (X : (⟨2, ![n, 3]⟩ : Shape).Idx → Ideal .f32) : (⟨2, ![n, 1093]⟩ : Shape).Idx → Ideal .f32 :=
  fun i => basis (rowOf X (i 0)) (i 1).val

theorem G_apply {n : ℕ} (X : (⟨2, ![n, 3]⟩ : Shape).Idx → Ideal .f32) (p : Fin n) (j : Fin 1093) :
    G X (ix2 p j) = basis (rowOf X p) j.val := rfl

end AngularBasis

end
-- ==== Proof.KernelBlock.lean ====
/-
  ONE BLOCK OF THE KERNEL: what the body stores for a block of 1000 rows, column by column.

  The body builds seven levels from its block `v0 : [1000, 3]` of rows. Level 0 is a column of ones. Level `l + 1` is made
  from level `l` (of width `k = 3 ^ l`) by casting it to `[1000, k, 1]` and broadcasting to `[1000, k, 3]`, casting the rows to
  `[1000, 1, 3]` and broadcasting to `[1000, k, 3]`, multiplying, and laying the product out flat as `[1000, 3 k]`; so its entry
  `(p, q)` is level `l` at `(p, q / 3)` times `v0 (p, q % 3)`, which is the recursion that defines the basis of a row. The seven
  levels are then joined along the columns, and what is stored at `(p, j)` is column `j` of the basis of row `p` of the block.
-/
import proofs.«172813_j84851373899904_1_alg».proof.Proof.Gen.KernelIdeal.Skeleton
import proofs.«172813_j84851373899904_1_alg».proof.Proof.LibRowTensor
import proofs.«172813_j84851373899904_1_alg».proof.Proof.Basis

noncomputable section

namespace Cert.KernelIdeal.Block

open Cert.KernelIdeal Cert.KernelIdeal.Gen Idealize.ShloMosaic Idealize.ShloMosaic.ValueIdx AngularBasis RowTensor

/-! ## The seven levels as the body computes them -/

/-- Level 0: a column of ones. -/
def kl0 : FVec Ideal S1000x1 .f32 := broadcast S1000x1 (Scalar.ofBits .f32 0x3F800000#32)

/-- Level 1, width 3: the column of ones times the rows (which need no broadcast at width 1). -/
def kl1 (v0 : FVec Ideal S1000x3 .f32) : FVec Ideal S1000x3 .f32 :=
  shapeCast S1000x3
    (mulf (broadcastTo S1000x1x3 (shapeCast S1000x1x1 kl0 shapeCasts_S1000x1_S1000x1x1) broadcasts_S1000x1x1_S1000x1x3)
      (shapeCast S1000x1x3 v0 shapeCasts_S1000x3_S1000x1x3))
    shapeCasts_S1000x1x3_S1000x3

/-- Level 2, width 9. -/
def kl2 (v0 : FVec Ideal S1000x3 .f32) : FVec Ideal S1000x9 .f32 :=
  shapeCast S1000x9
    (mulf (broadcastTo S1000x3x3 (shapeCast S1000x3x1 (kl1 v0) shapeCasts_S1000x3_S1000x3x1) broadcasts_S1000x3x1_S1000x3x3)
      (broadcastTo S1000x3x3 (shapeCast S1000x1x3 v0 shapeCasts_S1000x3_S1000x1x3) broadcasts_S1000x1x3_S1000x3x3))
    shapeCasts_S1000x3x3_S1000x9

/-- Level 3, width 27. -/
def kl3 (v0 : FVec Ideal S1000x3 .f32) : FVec Ideal S1000x27 .f32 :=
  shapeCast S1000x27
    (mulf (broadcastTo S1000x9x3 (shapeCast S1000x9x1 (kl2 v0) shapeCasts_S1000x9_S1000x9x1) broadcasts_S1000x9x1_S1000x9x3)
      (broadcastTo S1000x9x3 (shapeCast S1000x1x3 v0 shapeCasts_S1000x3_S1000x1x3) broadcasts_S1000x1x3_S1000x9x3))
    shapeCasts_S1000x9x3_S1000x27

/-- Level 4, width 81. -/
def kl4 (v0 : FVec Ideal S1000x3 .f32) : FVec Ideal S1000x81 .f32 :=
  shapeCast S1000x81
    (mulf (broadcastTo S1000x27x3 (shapeCast S1000x27x1 (kl3 v0) shapeCasts_S1000x27_S1000x27x1) broadcasts_S1000x27x1_S1000x27x3)
      (broadcastTo S1000x27x3 (shapeCast S1000x1x3 v0 shapeCasts_S1000x3_S1000x1x3) broadcasts_S1000x1x3_S1000x27x3))
    shapeCasts_S1000x27x3_S1000x81

/-- Level 5, width 243. -/
def kl5 (v0 : FVec Ideal S1000x3 .f32) : FVec Ideal S1000x243 .f32 :=
  shapeCast S1000x243
    (mulf (broadcastTo S1000x81x3 (shapeCast S1000x81x1 (kl4 v0) shapeCasts_S1000x81_S1000x81x1) broadcasts_S1000x81x1_S1000x81x3)
      (broadcastTo S1000x81x3 (shapeCast S1000x1x3 v0 shapeCasts_S1000x3_S1000x1x3) broadcasts_S1000x1x3_S1000x81x3))
    shapeCasts_S1000x81x3_S1000x243

/-- Level 6, width 729. -/
def kl6 (v0 : FVec Ideal S1000x3 .f32) : FVec Ideal S1000x729 .f32 :=
  shapeCast S1000x729
    (mulf (broadcastTo S1000x243x3 (shapeCast S1000x243x1 (kl5 v0) shapeCasts_S1000x243_S1000x243x1) broadcasts_S1000x243x1_S1000x243x3)
      (broadcastTo S1000x243x3 (shapeCast S1000x1x3 v0 shapeCasts_S1000x3_S1000x1x3) broadcasts_S1000x1x3_S1000x243x3))
    shapeCasts_S1000x243x3_S1000x729

/-- What the body stores is the seven levels joined along the columns (the body's bindings, substituted). -/
theorem pay_eq (v0 : FVec Ideal S1000x3 .f32) :
    k0_pay1 (F := Ideal) v0
      = concatenate S1000x1093 1
          [⟨S1000x1, kl0⟩, ⟨S1000x3, kl1 v0⟩, ⟨S1000x9, kl2 v0⟩, ⟨S1000x27, kl3 v0⟩, ⟨S1000x81, kl4 v0⟩, ⟨S1000x243, kl5 v0⟩,
            ⟨S1000x729, kl6 v0⟩]
          concatenates_S1000x1_S1000x3_S1000x9_S1000x27_S1000x81_S1000x243_S1000x729_S1000x1093_d1 := rfl

/-! ## Each level from the one before -/

theorem kl1_apply (v0 : FVec Ideal S1000x3 .f32) (p : Fin 1000) (q : Fin 3) :
    kl1 v0 (ix2 p q) = kl0 (ix2 p (⟨q.val / 3, div3_lt (k := 1) rfl q⟩ : Fin 1)) * v0 (ix2 p (⟨q.val % 3, Nat.mod_lt _ (by decide)⟩ : Fin 3)) :=
  kstep1_apply (n := 1000) kl0 v0 _ _ _ _ p q

theorem kl2_apply (v0 : FVec Ideal S1000x3 .f32) (p : Fin 1000) (q : Fin 9) :
    kl2 v0 (ix2 p q) = kl1 v0 (ix2 p (⟨q.val / 3, div3_lt (k := 3) rfl q⟩ : Fin 3)) * v0 (ix2 p (⟨q.val % 3, Nat.mod_lt _ (by decide)⟩ : Fin 3)) :=
  kstep_apply (n := 1000) (k := 3) (k3 := 9) rfl (kl1 v0) v0 _ _ _ _ _ p q

theorem kl3_apply (v0 : FVec Ideal S1000x3 .f32) (p : Fin 1000) (q : Fin 27) :
    kl3 v0 (ix2 p q) = kl2 v0 (ix2 p (⟨q.val / 3, div3_lt (k := 9) rfl q⟩ : Fin 9)) * v0 (ix2 p (⟨q.val % 3, Nat.mod_lt _ (by decide)⟩ : Fin 3)) :=
  kstep_apply (n := 1000) (k := 9) (k3 := 27) rfl (kl2 v0) v0 _ _ _ _ _ p q

theorem kl4_apply (v0 : FVec Ideal S1000x3 .f32) (p : Fin 1000) (q : Fin 81) :
    kl4 v0 (ix2 p q) = kl3 v0 (ix2 p (⟨q.val / 3, div3_lt (k := 27) rfl q⟩ : Fin 27)) * v0 (ix2 p (⟨q.val % 3, Nat.mod_lt _ (by decide)⟩ : Fin 3)) :=
  kstep_apply (n := 1000) (k := 27) (k3 := 81) rfl (kl3 v0) v0 _ _ _ _ _ p q

theorem kl5_apply (v0 : FVec Ideal S1000x3 .f32) (p : Fin 1000) (q : Fin 243) :
    kl5 v0 (ix2 p q) = kl4 v0 (ix2 p (⟨q.val / 3, div3_lt (k := 81) rfl q⟩ : Fin 81)) * v0 (ix2 p (⟨q.val % 3, Nat.mod_lt _ (by decide)⟩ : Fin 3)) :=
  kstep_apply (n := 1000) (k := 81) (k3 := 243) rfl (kl4 v0) v0 _ _ _ _ _ p q

theorem kl6_apply (v0 : FVec Ideal S1000x3 .f32) (p : Fin 1000) (q : Fin 729) :
    kl6 v0 (ix2 p q) = kl5 v0 (ix2 p (⟨q.val / 3, div3_lt (k := 243) rfl q⟩ : Fin 243)) * v0 (ix2 p (⟨q.val % 3, Nat.mod_lt _ (by decide)⟩ : Fin 3)) :=
  kstep_apply (n := 1000) (k := 243) (k3 := 729) rfl (kl5 v0) v0 _ _ _ _ _ p q

/-! ## Each level is the row's level -/

theorem kl0_lev (v0 : FVec Ideal S1000x3 .f32) (p : Fin 1000) (q : Fin 1) : kl0 (ix2 p q) = lev (rowOf v0 p) 0 q.val := rfl

theorem kl1_lev (v0 : FVec Ideal S1000x3 .f32) (p : Fin 1000) (q : Fin 3) : kl1 v0 (ix2 p q) = lev (rowOf v0 p) 1 q.val := by
  rw [kl1_apply, kl0_lev v0]
  exact (lev_succ (rowOf v0 p) 0 q.val).symm

theorem kl2_lev (v0 : FVec Ideal S1000x3 .f32) (p : Fin 1000) (q : Fin 9) : kl2 v0 (ix2 p q) = lev (rowOf v0 p) 2 q.val := by
  rw [kl2_apply, kl1_lev]
  exact (lev_succ (rowOf v0 p) 1 q.val).symm

theorem kl3_lev (v0 : FVec Ideal S1000x3 .f32) (p : Fin 1000) (q : Fin 27) : kl3 v0 (ix2 p q) = lev (rowOf v0 p) 3 q.val := by
  rw [kl3_apply, kl2_lev]
  exact (lev_succ (rowOf v0 p) 2 q.val).symm

theorem kl4_lev (v0 : FVec Ideal S1000x3 .f32) (p : Fin 1000) (q : Fin 81) : kl4 v0 (ix2 p q) = lev (rowOf v0 p) 4 q.val := by
  rw [kl4_apply, kl3_lev]
  exact (lev_succ (rowOf v0 p) 3 q.val).symm

theorem kl5_lev (v0 : FVec Ideal S1000x3 .f32) (p : Fin 1000) (q : Fin 243) : kl5 v0 (ix2 p q) = lev (rowOf v0 p) 5 q.val := by
  rw [kl5_apply, kl4_lev]
  exact (lev_succ (rowOf v0 p) 4 q.val).symm

theorem kl6_lev (v0 : FVec Ideal S1000x3 .f32) (p : Fin 1000) (q : Fin 729) : kl6 v0 (ix2 p q) = lev (rowOf v0 p) 6 q.val := by
  rw [kl6_apply, kl5_lev]
  exact (lev_succ (rowOf v0 p) 5 q.val).symm

/-! ## The stored block, column by column -/

/-- What the body stores at `(p, j)` is column `j` of the basis of row `p` of its block: the level whose span holds `j` is
    the piece of the concatenation read there. -/
theorem pay_apply (v0 : FVec Ideal S1000x3 .f32) (p : Fin 1000) (j : Fin 1093) :
    k0_pay1 (F := Ideal) v0 (ix2 p j) = basis (rowOf v0 p) j.val := by
  have hj : j.val < 1093 := j.isLt
  rw [pay_eq]
  unfold basis
  by_cases h1 : j.val < 1
  · rw [if_pos h1]
    exact (concat7_apply_piece kl0 (kl1 v0) (kl2 v0) (kl3 v0) (kl4 v0) (kl5 v0) (kl6 v0) _ p j 0 (by show (0 : ℕ) < 7; decide) 1 kl0 rfl 0 rfl
      (Nat.zero_le _) (by omega)).trans (kl0_lev v0 p _)
  rw [if_neg h1]
  by_cases h4 : j.val < 4
  · rw [if_pos h4]
    exact (concat7_apply_piece kl0 (kl1 v0) (kl2 v0) (kl3 v0) (kl4 v0) (kl5 v0) (kl6 v0) _ p j 1 (by show (1 : ℕ) < 7; decide) 3 (kl1 v0) rfl 1 rfl
      (by omega) (by omega)).trans (kl1_lev v0 p _)
  rw [if_neg h4]
  by_cases h13 : j.val < 13
  · rw [if_pos h13]
    exact (concat7_apply_piece kl0 (kl1 v0) (kl2 v0) (kl3 v0) (kl4 v0) (kl5 v0) (kl6 v0) _ p j 2 (by show (2 : ℕ) < 7; decide) 9 (kl2 v0) rfl 4 rfl
      (by omega) (by omega)).trans (kl2_lev v0 p _)
  rw [if_neg h13]
  by_cases h40 : j.val < 40
  · rw [if_pos h40]
    exact (concat7_apply_piece kl0 (kl1 v0) (kl2 v0) (kl3 v0) (kl4 v0) (kl5 v0) (kl6 v0) _ p j 3 (by show (3 : ℕ) < 7; decide) 27 (kl3 v0) rfl 13 rfl
      (by omega) (by omega)).trans (kl3_lev v0 p _)
  rw [if_neg h40]
  by_cases h121 : j.val < 121
  · rw [if_pos h121]
    exact (concat7_apply_piece kl0 (kl1 v0) (kl2 v0) (kl3 v0) (kl4 v0) (kl5 v0) (kl6 v0) _ p j 4 (by show (4 : ℕ) < 7; decide) 81 (kl4 v0) rfl 40 rfl
      (by omega) (by omega)).trans (kl4_lev v0 p _)
  rw [if_neg h121]
  by_cases h364 : j.val < 364
  · rw [if_pos h364]
    exact (concat7_apply_piece kl0 (kl1 v0) (kl2 v0) (kl3 v0) (kl4 v0) (kl5 v0) (kl6 v0) _ p j 5 (by show (5 : ℕ) < 7; decide) 243 (kl5 v0) rfl 121 rfl
      (by omega) (by omega)).trans (kl5_lev v0 p _)
  rw [if_neg h364]
  exact (concat7_apply_piece kl0 (kl1 v0) (kl2 v0) (kl3 v0) (kl4 v0) (kl5 v0) (kl6 v0) _ p j 6 (by show (6 : ℕ) < 7; decide) 729 (kl6 v0) rfl 364 rfl
    (by omega) (by omega)).trans (kl6_lev v0 p _)

end Cert.KernelIdeal.Block

end
-- ==== Proof.KernelArray.lean ====
/-
  FROM BLOCKS TO THE ARRAY: after the run the kernel's result array is `G` of its argument array.

  The grid has 200 points. Point `t` reads rows `1000 t … 1000 t + 999` of the argument (all 3 columns) and writes back rows
  `1000 t … 1000 t + 999` of the result (all 1093 columns). What it writes at row `p` of its block is the basis of row `p` of
  the block it read, that is of row `1000 t + p` of the argument: block `t` of `G`. Row `r` of the result lies in the block of
  point `r / 1000`, so the 200 blocks cover the array and it ends holding `G`.
-/
import proofs.«172813_j84851373899904_1_alg».proof.Proof.Gen.KernelIdeal.Value
import proofs.«172813_j84851373899904_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx AngularBasis

variable (m : (ℓ : Loc nD τ sig) → Buf (Elt Ideal) ℓ) (ρ : Dev nD → PrngReg)

theorem hz : (![0, 0] : Fin 2 → Nat) = fun _ => 0 := funext fun a => by fin_cases a <;> rfl

/-- The argument array as the region finds it, as a `[200000, 3]` array of extended reals. -/
abbrev xarr (c : Dev nD) : FVec Ideal S200000x3 .f32 := V m c main_arg0

/-- A block of the kernel is a block of `G`: if the block `x0` holds rows `1000 b …` of `X`, what the body stores at `y` is `G X`
    at the index `1000 b` rows further down. Stated over variables of the literal types. -/
theorem block_is_G (X : FVec Ideal S200000x3 .f32) (x0 : FVec Ideal S1000x3 .f32) (b : ℕ)
    (hx : ∀ (p : Fin 1000) (d : Fin 3) (r : Fin 200000), r.val = b * 1000 + p.val → x0 (ix2 p d) = X (ix2 r d))
    (y : S1000x1093.Idx) (i : S200000x1093.Idx) (hi0 : (i 0).val = b * 1000 + (y 0).val) (hi1 : (i 1).val = (y 1).val) :
    k0_pay1 (F := Ideal) x0 y = G (n := 200000) X i := by
  obtain ⟨p, q, rfl⟩ : ∃ (p : Fin 1000) (q : Fin 1093), y = ix2 p q := ⟨y 0, y 1, eq_ix2 y⟩
  obtain ⟨r, j, rfl⟩ : ∃ (r : Fin 200000) (j : Fin 1093), i = ix2 r j := ⟨i 0, i 1, eq_ix2 i⟩
  have hq : j = q := Fin.ext hi1
  subst hq
  rw [Block.pay_apply, G_apply]
  exact congrArg (fun x => basis x j.val) (funext fun d => hx p d r hi0)

/-- The printed index maps over the grid: both windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `G` of the argument array. -/
theorem flushed_eq (c : Dev nD) (t : Fin cfg0.N) :
    (dats m 0 c).flushed 1 t = ((cfg0.win 1).blk t).view.read (Elt Ideal) (G (n := 200000) (xarr m c)) := by
  rw [Value.flushed1]
  unfold out0_1
  rw [View.canon_unit_zero hz]
  simp only [View.ld_unit_zero (S := S1000x3) hz]
  obtain ⟨e0, e1, e2, e3⟩ := idx_facts t
  funext y
  show k0_pay1 (F := Ideal) (iblk m c 0 t) y = G (n := 200000) (xarr m c) (((cfg0.win 1).blk t).view.emb y)
  refine block_is_G (xarr m c) (iblk m c 0 t) t.val ?_ y _ ?_ ?_
  · intro p d r hr
    unfold iblk
    rw [View.read_apply]
    show V m c main_arg0 _ = V m c main_arg0 _
    congr 1
    funext a
    apply Fin.ext
    match a with
    | ⟨0, _⟩ => show win0_0.index t (0 : Fin 2) * 1000 + 1 * p.val = r.val; rw [e0, hr]; omega
    | ⟨1, _⟩ => show win0_0.index t (1 : Fin 2) * 3 + 1 * d.val = d.val; rw [e1]; omega
  · show win0_1.index t (0 : Fin 2) * 1000 + 1 * (y 0).val = t.val * 1000 + (y 0).val
    rw [e2]; omega
  · show win0_1.index t (1 : Fin 2) * 1093 + 1 * (y 1).val = (y 1).val
    rw [e3]; omega

/-- An index of the result array is in point `t`'s block iff each coordinate is in the block's range on its axis. -/
theorem mem_blk (t : Fin cfg0.N) (i : S200000x1093.Idx) :
    i ∈ ((cfg0.win 1).blk t).view.set ↔ ∀ a : Fin 2, win0_1.index t a * S1000x1093.size a ≤ (i a).val
      ∧ (i a).val < win0_1.index t a * S1000x1093.size a + S1000x1093.size a := by
  show i ∈ ((View.whole main_v0).slice (win0_1.rect t)).set ↔ _
  rw [View.set_slice_whole, Rect.mem_set_unit]
  exact Iff.rfl

/-- Every index of the result array is in the block of the point its row names: row `r` is in block `r / 1000`. -/
theorem cover (i : S200000x1093.Idx) :
    ∃ t : Fin cfg0.N, (cfg0.win 1).flush t = true ∧ i ∈ ((cfg0.win 1).blk t).view.set := by
  have hi0 : (i 0).val < 200000 := (i 0).isLt
  have hi1 : (i 1).val < 1093 := (i 1).isLt
  have hN : cfg0.N = 200 := N_0
  obtain ⟨t, ht⟩ : ∃ t : Fin cfg0.N, t.val = (i 0).val / 1000 := ⟨⟨(i 0).val / 1000, by rw [hN]; omega⟩, rfl⟩
  obtain ⟨e0, e1, e2, e3⟩ := idx_facts t
  refine ⟨t, flush0_1 t, ?_⟩
  rw [mem_blk]
  intro a
  match a with
  | ⟨0, _⟩ =>
    show win0_1.index t (0 : Fin 2) * 1000 ≤ (i 0).val ∧ (i 0).val < win0_1.index t (0 : Fin 2) * 1000 + 1000
    rw [e2, ht]; omega
  | ⟨1, _⟩ =>
    show win0_1.index t (1 : Fin 2) * 1093 ≤ (i 1).val ∧ (i 1).val < win0_1.index t (1 : Fin 2) * 1093 + 1093
    rw [e3]; omega

/-- The result array after the run is `G` of the argument array. -/
theorem final (c : Dev nD) : (dats m 0 c).arrAt 1 cfg0.N = G (n := 200000) (xarr m c) :=
  (dats m 0 c).arrAt_eq_of_cover 1 (G (n := 200000) (xarr m c)) (fun t _ => flushed_eq m c t) cover

/-- The kernel's run, read: every weakly fair execution ends with the result array at `G` of the argument array and the
    argument unchanged. -/
theorem run : θ_run defs (onTc (τ := τ) (main (F := Ideal))) ⟨m, fun _ => 0, ρ⟩ fun r => ∀ c : Dev nD,
      r.2.mem ((c : Thread nD τ).loc main_v0) = G (n := 200000) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefBasis.lean ====
/-
  THE REFERENCE, column by column: its result array at `(r, j)` is column `j` of the basis of row `r` of its argument.

  The reference builds the same seven levels over all 200000 rows at once. Level 0 is the constant one broadcast to a
  column. Level `l + 1` is made from level `l` (of width `k`) by sending it to axes 0, 1 of `[200000, k, 1]` and stretching to
  `[200000, k, 3]`, sending the argument to axes 0, 2 of `[200000, 1, 3]` and stretching likewise, multiplying, and reshaping
  to `[200000, 3 k]`: entry `(r, q)` is level `l` at `(r, q / 3)` times the argument at `(r, q % 3)`. The seven levels are
  concatenated along the columns. The stages are the ones the generated read-back names (level `l` is the stage of the
  `l`-th reshape; level 0 the first broadcast).
-/
import proofs.«172813_j84851373899904_1_alg».proof.Proof.Gen.ReferenceIdeal.Read
import proofs.«172813_j84851373899904_1_alg».proof.Proof.LibRowTensor
import proofs.«172813_j84851373899904_1_alg».proof.Proof.Basis

noncomputable section

namespace Cert.ReferenceIdeal.RefBasis

open Cert.ReferenceIdeal Cert.ReferenceIdeal.Gen Cert.ReferenceIdeal.Read Idealize.ShloMosaic Idealize.ShloMosaic.ValueIdx
open AngularBasis RowTensor

/-! ## Each level from the one before -/

theorem rl1_apply (x0 : FVec Ideal S200000x3 .f32) (r : Fin 200000) (q : Fin 3) :
    val_main_v5 (F := Ideal) x0 (ix2 r q)
      = val_main_v0 (F := Ideal) (ix2 r (⟨q.val / 3, div3_lt (k := 1) rfl q⟩ : Fin 1)) * x0 (ix2 r (⟨q.val % 3, Nat.mod_lt _ (by decide)⟩ : Fin 3)) :=
  hstep1_apply (n := 200000) (φ := .f32) (val_main_v0 (F := Ideal)) x0 _ _ _ _ r q

theorem rl2_apply (x0 : FVec Ideal S200000x3 .f32) (r : Fin 200000) (q : Fin 9) :
    val_main_v11 (F := Ideal) x0 (ix2 r q)
      = val_main_v5 (F := Ideal) x0 (ix2 r (⟨q.val / 3, div3_lt (k := 3) rfl q⟩ : Fin 3)) * x0 (ix2 r (⟨q.val % 3, Nat.mod_lt _ (by decide)⟩ : Fin 3)) :=
  hstep_apply (n := 200000) (k := 3) (k3 := 9) (φ := .f32) rfl (val_main_v5 (F := Ideal) x0) x0 _ _ _ _ _ r q

theorem rl3_apply (x0 : FVec Ideal S200000x3 .f32) (r : Fin 200000) (q : Fin 27) :
    val_main_v17 (F := Ideal) x0 (ix2 r q)
      = val_main_v11 (F := Ideal) x0 (ix2 r (⟨q.val / 3, div3_lt (k := 9) rfl q⟩ : Fin 9)) * x0 (ix2 r (⟨q.val % 3, Nat.mod_lt _ (by decide)⟩ : Fin 3)) :=
  hstep_apply (n := 200000) (k := 9) (k3 := 27) (φ := .f32) rfl (val_main_v11 (F := Ideal) x0) x0 _ _ _ _ _ r q

theorem rl4_apply (x0 : FVec Ideal S200000x3 .f32) (r : Fin 200000) (q : Fin 81) :
    val_main_v23 (F := Ideal) x0 (ix2 r q)
      = val_main_v17 (F := Ideal) x0 (ix2 r (⟨q.val / 3, div3_lt (k := 27) rfl q⟩ : Fin 27)) * x0 (ix2 r (⟨q.val % 3, Nat.mod_lt _ (by decide)⟩ : Fin 3)) :=
  hstep_apply (n := 200000) (k := 27) (k3 := 81) (φ := .f32) rfl (val_main_v17 (F := Ideal) x0) x0 _ _ _ _ _ r q

theorem rl5_apply (x0 : FVec Ideal S200000x3 .f32) (r : Fin 200000) (q : Fin 243) :
    val_main_v29 (F := Ideal) x0 (ix2 r q)
      = val_main_v23 (F := Ideal) x0 (ix2 r (⟨q.val / 3, div3_lt (k := 81) rfl q⟩ : Fin 81)) * x0 (ix2 r (⟨q.val % 3, Nat.mod_lt _ (by decide)⟩ : Fin 3)) :=
  hstep_apply (n := 200000) (k := 81) (k3 := 243) (φ := .f32) rfl (val_main_v23 (F := Ideal) x0) x0 _ _ _ _ _ r q

theorem rl6_apply (x0 : FVec Ideal S200000x3 .f32) (r : Fin 200000) (q : Fin 729) :
    val_main_v35 (F := Ideal) x0 (ix2 r q)
      = val_main_v29 (F := Ideal) x0 (ix2 r (⟨q.val / 3, div3_lt (k := 243) rfl q⟩ : Fin 243)) * x0 (ix2 r (⟨q.val % 3, Nat.mod_lt _ (by decide)⟩ : Fin 3)) :=
  hstep_apply (n := 200000) (k := 243) (k3 := 729) (φ := .f32) rfl (val_main_v29 (F := Ideal) x0) x0 _ _ _ _ _ r q

/-! ## Each level is the row's level -/

theorem rl0_lev (x0 : FVec Ideal S200000x3 .f32) (r : Fin 200000) (q : Fin 1) :
    val_main_v0 (F := Ideal) (ix2 r q) = lev (rowOf x0 r) 0 q.val :=
  (val_main_v0_apply (F := Ideal) (ix2 r q)).trans (val_main_cst_apply (F := Ideal) _)

theorem rl1_lev (x0 : FVec Ideal S200000x3 .f32) (r : Fin 200000) (q : Fin 3) :
    val_main_v5 (F := Ideal) x0 (ix2 r q) = lev (rowOf x0 r) 1 q.val := by
  rw [rl1_apply, rl0_lev x0]
  exact (lev_succ (rowOf x0 r) 0 q.val).symm

theorem rl2_lev (x0 : FVec Ideal S200000x3 .f32) (r : Fin 200000) (q : Fin 9) :
    val_main_v11 (F := Ideal) x0 (ix2 r q) = lev (rowOf x0 r) 2 q.val := by
  rw [rl2_apply, rl1_lev]
  exact (lev_succ (rowOf x0 r) 1 q.val).symm

theorem rl3_lev (x0 : FVec Ideal S200000x3 .f32) (r : Fin 200000) (q : Fin 27) :
    val_main_v17 (F := Ideal) x0 (ix2 r q) = lev (rowOf x0 r) 3 q.val := by
  rw [rl3_apply, rl2_lev]
  exact (lev_succ (rowOf x0 r) 2 q.val).symm

theorem rl4_lev (x0 : FVec Ideal S200000x3 .f32) (r : Fin 200000) (q : Fin 81) :
    val_main_v23 (F := Ideal) x0 (ix2 r q) = lev (rowOf x0 r) 4 q.val := by
  rw [rl4_apply, rl3_lev]
  exact (lev_succ (rowOf x0 r) 3 q.val).symm

theorem rl5_lev (x0 : FVec Ideal S200000x3 .f32) (r : Fin 200000) (q : Fin 243) :
    val_main_v29 (F := Ideal) x0 (ix2 r q) = lev (rowOf x0 r) 5 q.val := by
  rw [rl5_apply, rl4_lev]
  exact (lev_succ (rowOf x0 r) 4 q.val).symm

theorem rl6_lev (x0 : FVec Ideal S200000x3 .f32) (r : Fin 200000) (q : Fin 729) :
    val_main_v35 (F := Ideal) x0 (ix2 r q) = lev (rowOf x0 r) 6 q.val := by
  rw [rl6_apply, rl5_lev]
  exact (lev_succ (rowOf x0 r) 5 q.val).symm

/-! ## The result array, column by column -/

/-- The reference's result at `(r, j)` is column `j` of the basis of row `r` of the argument. -/
theorem ref_apply (x0 : FVec Ideal S200000x3 .f32) (r : Fin 200000) (j : Fin 1093) :
    val_main_v36 (F := Ideal) x0 (ix2 r j) = basis (rowOf x0 r) j.val := by
  have hj : j.val < 1093 := j.isLt
  unfold val_main_v36
  unfold basis
  by_cases h1 : j.val < 1
  · rw [if_pos h1]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 0 (by show (0 : ℕ) < 7; decide) 1 (val_main_v0 (F := Ideal)) rfl 0 rfl (Nat.zero_le _) (by omega)).trans (rl0_lev x0 r _)
  rw [if_neg h1]
  by_cases h4 : j.val < 4
  · rw [if_pos h4]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 1 (by show (1 : ℕ) < 7; decide) 3 (val_main_v5 (F := Ideal) x0) rfl 1 rfl (by omega) (by omega)).trans (rl1_lev x0 r _)
  rw [if_neg h4]
  by_cases h13 : j.val < 13
  · rw [if_pos h13]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 2 (by show (2 : ℕ) < 7; decide) 9 (val_main_v11 (F := Ideal) x0) rfl 4 rfl (by omega) (by omega)).trans (rl2_lev x0 r _)
  rw [if_neg h13]
  by_cases h40 : j.val < 40
  · rw [if_pos h40]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 3 (by show (3 : ℕ) < 7; decide) 27 (val_main_v17 (F := Ideal) x0) rfl 13 rfl (by omega) (by omega)).trans (rl3_lev x0 r _)
  rw [if_neg h40]
  by_cases h121 : j.val < 121
  · rw [if_pos h121]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 4 (by show (4 : ℕ) < 7; decide) 81 (val_main_v23 (F := Ideal) x0) rfl 40 rfl (by omega) (by omega)).trans (rl4_lev x0 r _)
  rw [if_neg h121]
  by_cases h364 : j.val < 364
  · rw [if_pos h364]
    exact (concat7_apply_piece (val_main_v0 (F := Ideal)) (val_main_v5 (F := Ideal) x0) (val_main_v11 (F := Ideal) x0)
      (val_main_v17 (F := Ideal) x0) (val_main_v23 (F := Ideal) x0) (val_main_v29 (F := Ideal) x0) (val_main_v35 (F := Ideal) x0)
      _ r j 5 (by show (5 : ℕ) < 7; decide) 243 (val_main_v29 (F := Ideal) x0) rfl 121 rfl (by omega) (by omega)).trans (rl5_lev x0 r _)
  rw [if_neg h364]
  exact (concat7_apply_piece (val_main_v0 (F := Ideal)) (val_main_v5 (F := Ideal) x0) (val_main_v11 (F := Ideal) x0)
    (val_main_v17 (F := Ideal) x0) (val_main_v23 (F := Ideal) x0) (val_main_v29 (F := Ideal) x0) (val_main_v35 (F := Ideal) x0)
    _ r j 6 (by show (6 : ℕ) < 7; decide) 729 (val_main_v35 (F := Ideal) x0) rfl 364 rfl (by omega) (by omega)).trans (rl6_lev x0 r _)

/-- So the reference's result array is `G` of its argument. -/
theorem ref_eq (x0 : FVec Ideal S200000x3 .f32) : val_main_v36 (F := Ideal) x0 = G (n := 200000) x0 := by
  funext i
  rw [eq_ix2 i]
  exact ref_apply x0 (i 0) (i 1)

end Cert.ReferenceIdeal.RefBasis

end
-- ==== Proof.lean ====
/-
  The angular-basis kernel against its reference, over the extended reals.

  Both programs expand each row `x = (x₀, x₁, x₂)` of a `[200000, 3]` array into the 1093 entries of its tensor powers up to
  degree 6: level 0 is one, entry `c` of level `l + 1` is entry `c / 3` of level `l` times `x (c % 3)`, and the seven levels lie
  side by side (`AngularBasis.G`, Proof/Basis.lean). The reference does it over the whole array with broadcasts, a product
  and a reshape per level and one concatenation (Proof/RefBasis.lean, over the generated read-back of its run). The kernel
  does the same on blocks of 1000 rows, one block per grid point, with shape casts and broadcasts (Proof/KernelBlock.lean),
  and its 200 blocks cover the result array (Proof/KernelArray.lean, over the generated frame run). Both multiply the
  previous level on the left by the coordinate on the right, so the two results are the same extended reals entry by
  entry and no law of arithmetic, and no finiteness of the input, is used. The index reading of each re-laying, for any
  number of rows and any level width, is Proof/LibRowTensor.lean.

  The frames of the two kernel programs are the generated ones; the reference's is its generated run with the result
  dropped; the ideal pass rewrote nothing, so the kernel's idealization is its own text read over the extended reals.
-/
import proofs.«172813_j84851373899904_1_alg».proof.Defs
import proofs.«172813_j84851373899904_1_alg».proof.Proof.Gen.Kernel
import proofs.«172813_j84851373899904_1_alg».proof.Proof.Gen.Kernel.Skeleton
import proofs.«172813_j84851373899904_1_alg».proof.Proof.Gen.Kernel.Launch
import proofs.«172813_j84851373899904_1_alg».proof.Proof.Gen.Kernel.Points
import proofs.«172813_j84851373899904_1_alg».proof.Proof.Gen.Kernel.Frame
import proofs.«172813_j84851373899904_1_alg».proof.Proof.Gen.KernelIdeal
import proofs.«172813_j84851373899904_1_alg».proof.Proof.Gen.KernelIdeal.Skeleton
import proofs.«172813_j84851373899904_1_alg».proof.Proof.Gen.KernelIdeal.Launch
import proofs.«172813_j84851373899904_1_alg».proof.Proof.Gen.KernelIdeal.Points
import proofs.«172813_j84851373899904_1_alg».proof.Proof.Gen.KernelIdeal.Frame
import proofs.«172813_j84851373899904_1_alg».proof.Proof.Gen.ReferenceIdeal
import proofs.«172813_j84851373899904_1_alg».proof.Proof.Gen.KernelIdeal.Value
import proofs.«172813_j84851373899904_1_alg».proof.Proof.Gen.ReferenceIdeal.Run
import proofs.«172813_j84851373899904_1_alg».proof.Proof.Gen.ReferenceIdeal.Read
import proofs.«172813_j84851373899904_1_alg».proof.Proof.Gen.Pre_finite_inputs
import proofs.«172813_j84851373899904_1_alg».proof.Proof.KernelArray
import proofs.«172813_j84851373899904_1_alg».proof.Proof.RefBasis
import Idealize.ShloMosaic.Adequacy
import Idealize.ShloMosaic.Init

noncomputable section

namespace Cert.Proof

open Idealize.ShloMosaic Idealize.SL.Sem

/-- The word-level kernel runs and leaves its argument as it was: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its argument as it was: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument both programs end with the result array at `G` of the argument: the kernel by
    its blocks covering the array, the reference by its run read stage by stage. -/
theorem algebraic : Cert.algebraic_KernelIdeal_ReferenceIdeal := by
  intro m ρ m' ρ' _ hagree
  refine ⟨fun c => AngularBasis.G (n := 200000)
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefBasis.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
